-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x1 .f32) (main_arg12 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S1x1 : Shape := ⟨2, ![1, 1]⟩

abbrev nBuf : Space → Nat
  | .hbm => 66
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S_, .f32⟩
  | .hbm, ⟨48, _⟩ => ⟨S256x128, .f32⟩
  | .hbm, ⟨49, _⟩ => ⟨S50000x1, .i32⟩
  | .hbm, ⟨50, _⟩ => ⟨S256x128, .f32⟩
  | .hbm, ⟨51, _⟩ => ⟨S_, .f32⟩
  | .hbm, ⟨52, _⟩ => ⟨S50000, .f32⟩
  | .hbm, ⟨53, _⟩ => ⟨S_, .f32⟩
  | .hbm, ⟨54, _⟩ => ⟨S256, .f32⟩
  | .hbm, ⟨55, _⟩ => ⟨S50000x1, .i32⟩
  | .hbm, ⟨56, _⟩ => ⟨S256, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S256x1, .f32⟩
  | .hbm, ⟨61, _⟩ => ⟨S256x128, .f32⟩
  | .hbm, ⟨62, _⟩ => ⟨S256x128, .f32⟩
  | .hbm, ⟨63, _⟩ => ⟨S1x128, .f32⟩
  | .hbm, ⟨64, _⟩ => ⟨S1x1, .f32⟩
  | .hbm, ⟨65, _⟩ => ⟨S256x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S256x128, .f32⟩
  | .local _ .vmem, ⟨19, _⟩ => ⟨S128x128, .f32⟩
  | .local _ .vmem, ⟨20, _⟩ => ⟨S1x128, .f32⟩
  | .local _ .vmem, ⟨21, _⟩ => ⟨S128x1, .f32⟩
  | .local _ .vmem, ⟨22, _⟩ => ⟨S1x1, .f32⟩
  | .local _ .vmem, ⟨23, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S256x128 : S_.BroadcastsInDim S256x128 (![] : Fin 0 → Fin S256x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S1_S1x1 : S1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S256x128 : S1x128.Broadcasts S256x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S256x128.size a
  hwx2_0 : ∀ i : grid2.Coords, EltTy.bits .f32 = 32 ∨ (Rect.block (s := S256x128) S256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S256x1.size a
  hwx2_5 : ∀ i : grid2.Coords, EltTy.bits .f32 = 32 ∨ (Rect.block (s := S256x1) S256x1.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S256x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S256x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S256x128, .f32⟩
  | .hbm, ⟨63, _⟩ => ⟨S50000x1, .i32⟩
  | .hbm, ⟨64, _⟩ => ⟨S256x128, .f32⟩
  | .hbm, ⟨65, _⟩ => ⟨S_, .f32⟩
  | .hbm, ⟨66, _⟩ => ⟨S50000, .f32⟩
  | .hbm, ⟨67, _⟩ => ⟨S_, .f32⟩
  | .hbm, ⟨68, _⟩ => ⟨S256, .f32⟩
  | .hbm, ⟨69, _⟩ => ⟨S50000x1, .i32⟩
  | .hbm, ⟨70, _⟩ => ⟨S256, .f32⟩
  | .hbm, ⟨71, _⟩ => ⟨S_, .f32⟩
  | .hbm, ⟨72, _⟩ => ⟨S256, .f32⟩
  | .hbm, ⟨73, _⟩ => ⟨S256, .f32⟩
  | .hbm, ⟨74, _⟩ => ⟨S256x1, .f32⟩
  | .hbm, ⟨75, _⟩ => ⟨S256x128, .f32⟩
  | .hbm, ⟨76, _⟩ => ⟨S256x128, .f32⟩
  | .hbm, ⟨77, _⟩ => ⟨S256x128, .f32⟩
  | .hbm, ⟨78, _⟩ => ⟨S1x128, .f32⟩
  | .hbm, ⟨79, _⟩ => ⟨S256x128, .f32⟩
  | .hbm, ⟨80, _⟩ => ⟨S256x128, .f32⟩
  | .hbm, ⟨81, _⟩ => ⟨S_, .f32⟩
  | .hbm, ⟨82, _⟩ => ⟨S256x128, .f32⟩
  | .hbm, ⟨83, _⟩ => ⟨S256x128, .f32⟩
  | .hbm, ⟨84, _⟩ => ⟨S256x1, .f32⟩
  | .hbm, ⟨85, _⟩ => ⟨S1x1, .f32⟩
  | .hbm, ⟨86, _⟩ => ⟨S256x1, .f32⟩
  | .hbm, ⟨87, _⟩ => ⟨S256x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call0_cst : Ref sig .tc := ⟨.hbm, 36, rfl⟩
abbrev main_call0_v0 : Ref sig .tc := ⟨.hbm, 37, rfl⟩
abbrev main_v20 : Ref sig .tc := ⟨.hbm, 38, rfl⟩
abbrev main_c_1 : Ref sig .tc := ⟨.hbm, 39, rfl⟩
abbrev main_v21 : Ref sig .tc := ⟨.hbm, 40, rfl⟩
abbrev main_v22 : Ref sig .tc := ⟨.hbm, 41, rfl⟩
abbrev main_c_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_v37 : Ref sig .tc := ⟨.hbm, 60, rfl⟩
abbrev main_cst_4 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call2_cst : Ref sig .tc := ⟨.hbm, 81, rfl⟩
abbrev main_call2_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.Spec.lean ====
/-
  The mathematics both programs compute, stated once over the extended reals.

  A graph-convolution layer's dense part sends aggregated features `A` and node features `X` (both `[M, K]`) to
  `max (A · W_rel + b + X · W_root) 0` (`[M, N]`): at node `p` and output feature `q` it is
  `max ((Σ k, A (p, k) · W_rel (k, q)) + b q + Σ k, X (p, k) · W_root (k, q)) 0`.
  The read-out head sends pooled graph features `P` (`[G, K]`) to `relu (P · W₁ + b₁) · W₂ + b₂` (`[G, 1]`).
  The sums are finite sums in the commutative monoid of extended reals; no law beyond reading each operation at an
  index is needed to identify either program with these functions, so no finiteness of the inputs is used.
-/
import Idealize.ShloMosaic.PureOps.Ideal.Laws
import Idealize.ShloMosaic.Lib.ValueIdx

noncomputable section

namespace Cert.GraphSpec

open Idealize.ShloMosaic Idealize.ShloMosaic.ValueIdx

/-- The float zero both programs clamp against (`relu`), as the extended real its bit pattern denotes. -/
abbrev zeroF : EReal := Ideal.ofBits .f32 0x00000000#32

/-- One layer's dense part at node `p`, output feature `q`. -/
def convAt {M K N : ℕ} (A X : FVec Ideal ⟨2, ![M, K]⟩ .f32) (Wr Wt : FVec Ideal ⟨2, ![K, N]⟩ .f32) (b : Fin N → EReal)
    (p : Fin M) (q : Fin N) : EReal :=
  max ((∑ k : Fin K, A (ix2 p k) * Wr (ix2 k q)) + b q + ∑ k : Fin K, X (ix2 p k) * Wt (ix2 k q)) zeroF

/-- One layer's dense part as an array. -/
def conv {M K N : ℕ} (A X : FVec Ideal ⟨2, ![M, K]⟩ .f32) (Wr Wt : FVec Ideal ⟨2, ![K, N]⟩ .f32) (b : Fin N → EReal) :
    FVec Ideal ⟨2, ![M, N]⟩ .f32 :=
  fun i => convAt A X Wr Wt b (i 0) (i 1)

theorem conv_apply {M K N : ℕ} (A X : FVec Ideal ⟨2, ![M, K]⟩ .f32) (Wr Wt : FVec Ideal ⟨2, ![K, N]⟩ .f32) (b : Fin N → EReal)
    (p : Fin M) (q : Fin N) : conv A X Wr Wt b (ix2 p q) = convAt A X Wr Wt b p q := rfl

/-- The hidden layer of the read-out head at graph `g`, hidden feature `j`. -/
def hiddenAt {G K H : ℕ} (P : FVec Ideal ⟨2, ![G, K]⟩ .f32) (W1 : FVec Ideal ⟨2, ![K, H]⟩ .f32) (b1 : Fin H → EReal)
    (g : Fin G) (j : Fin H) : EReal :=
  max ((∑ k : Fin K, P (ix2 g k) * W1 (ix2 k j)) + b1 j) zeroF

/-- The read-out head at graph `g`, output `o`. -/
def headAt {G K H O : ℕ} (P : FVec Ideal ⟨2, ![G, K]⟩ .f32) (W1 : FVec Ideal ⟨2, ![K, H]⟩ .f32) (b1 : Fin H → EReal)
    (W2 : FVec Ideal ⟨2, ![H, O]⟩ .f32) (b2 : Fin O → EReal) (g : Fin G) (o : Fin O) : EReal :=
  (∑ j : Fin H, hiddenAt P W1 b1 g j * W2 (ix2 j o)) + b2 o

/-- The read-out head as an array. -/
def head {G K H O : ℕ} (P : FVec Ideal ⟨2, ![G, K]⟩ .f32) (W1 : FVec Ideal ⟨2, ![K, H]⟩ .f32) (b1 : Fin H → EReal)
    (W2 : FVec Ideal ⟨2, ![H, O]⟩ .f32) (b2 : Fin O → EReal) : FVec Ideal ⟨2, ![G, O]⟩ .f32 :=
  fun i => headAt P W1 b1 W2 b2 (i 0) (i 1)

theorem head_apply {G K H O : ℕ} (P : FVec Ideal ⟨2, ![G, K]⟩ .f32) (W1 : FVec Ideal ⟨2, ![K, H]⟩ .f32) (b1 : Fin H → EReal)
    (W2 : FVec Ideal ⟨2, ![H, O]⟩ .f32) (b2 : Fin O → EReal) (g : Fin G) (o : Fin O) :
    head P W1 b1 W2 b2 (ix2 g o) = headAt P W1 b1 W2 b2 g o := rfl

end Cert.GraphSpec

end
-- ==== Proof.Net.lean ====
/-
  The whole network both programs compute, over an abstract neighbour aggregation and an abstract pooling:
  two dense graph-convolution layers, each fed the aggregation of its own input, then the pooled read-out head.
  Both programs instantiate the two abstract maps with the very same host operations.
-/
import proofs.«125141_j15539191677055_1_alg».proof.Proof.Spec

noncomputable section

namespace Cert.GraphSpec

open Idealize.ShloMosaic Idealize.ShloMosaic.ValueIdx

/-- `head (pool h₂)` where `h₁ = conv (agg x) x` and `h₂ = conv (agg h₁) h₁`. -/
def net {N K G O : ℕ} (agg : FVec Ideal ⟨2, ![N, K]⟩ .f32 → FVec Ideal ⟨2, ![N, K]⟩ .f32)
    (pool : FVec Ideal ⟨2, ![N, K]⟩ .f32 → FVec Ideal ⟨2, ![G, K]⟩ .f32)
    (x : FVec Ideal ⟨2, ![N, K]⟩ .f32) (w1r w1t w2r w2t f1 : FVec Ideal ⟨2, ![K, K]⟩ .f32) (b1 b2 fb1 : Fin K → EReal)
    (f2 : FVec Ideal ⟨2, ![K, O]⟩ .f32) (fb2 : Fin O → EReal) : FVec Ideal ⟨2, ![G, O]⟩ .f32 :=
  head (pool (conv (agg (conv (agg x) x w1r w1t b1)) (conv (agg x) x w1r w1t b1) w2r w2t b2)) f1 fb1 f2 fb2

end Cert.GraphSpec

end
-- ==== Proof.HostDefsK.lean ====
/-
  The host-side stretches of the kernel's program, each named as one function of its inputs and never opened:
  the two index rows of the edge list, the neighbour aggregation (a gather of source rows scatter-added into destination
  rows), and the mean pooling over graphs (scatter-added sums divided by clamped counts).
  The reference applies the very same operations to its own values; the certificate only ever compares the names.
-/
import proofs.«125141_j15539191677055_1_alg».proof.Proof.Gen.KernelIdeal
import Idealize.ShloMosaic.PureOps.Ideal

noncomputable section

namespace Cert.KernelIdeal.HostDefs

open Idealize.ShloMosaic Idealize.SL.Sem Cert.KernelIdeal Cert.KernelIdeal.Facts₀

/-- Row 0 of the edge list (the source nodes), as a flat index array. -/
def srcRow (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- Row 1 of the edge list (the destination nodes), as a flat index array. -/
def dstRow (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- Neighbour aggregation: rows of `h` gathered at the (wrapped) source indices, scatter-added at the destination
    indices into a zero array. -/
def agg (h : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- Mean pooling: per-graph sums of the node rows divided by the per-graph node counts clamped below at one. -/
def pool (h : (⟨S50000x128, .f32⟩ : BufTy).Contents (Elt Ideal)) (bt : (⟨S50000, .i32⟩ : BufTy).Contents (Elt Ideal)) :
    (⟨S256x128, .f32⟩ : BufTy).Contents (Elt Ideal) :=
  Host.divf (F := Ideal)
    (Host.scatterAdd scatter_S256x128_S50000x1_S50000x128_1_0_0_1
      (broadcastInDim S256x128 ![] bcast_S_S256x128 (constant (F := Ideal) S_ .f32 0x00000000#32))
      (broadcastInDim S50000x1 ![0] bcast_S50000_S50000x1_0 bt) h)
    (broadcastInDim S256x128 ![0, 1] bcast_S256x1_S256x128_0_1
      (broadcastInDim S256x1 ![0] bcast_S256_S256x1_0
        (maximumf
          (Host.scatterAdd scatter_S256_S50000x1_S50000_n_0_0_1
            (broadcastInDim S256 ![] bcast_S_S256 (constant (F := Ideal) S_ .f32 0x00000000#32))
            (broadcastInDim S50000x1 ![0] bcast_S50000_S50000x1_0 bt)
            (broadcastInDim S50000 ![] bcast_S_S50000 (constant (F := Ideal) S_ .f32 0x3F800000#32)))
          (broadcastInDim S256 ![] bcast_S_S256 (constant (F := Ideal) S_ .f32 0x3F800000#32)))))

end Cert.KernelIdeal.HostDefs

end
-- ==== Proof.HostK.lean ====
import proofs.«125141_j15539191677055_1_alg».proof.Proof.Gen.KernelIdeal.Frame
import proofs.«125141_j15539191677055_1_alg».proof.Proof.HostDefsK
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.HostK

open Idealize.ShloMosaic Idealize.ShloMosaic.TcCoe Idealize.ShloMosaic.ValueIdx Idealize.SL.Sem
open Cert.KernelIdeal Cert.KernelIdeal.Gen Cert.KernelIdeal.HostDefs

/-!
  What each pallas_call finds in its operands: every host stretch of the kernel's program read back as the named host
  functions (the edge rows, the aggregation, the pooling, a bias vector laid out as one row) of the launch arguments
  and of the previous pallas_call's output. No host operation writes an argument, and the second stretch reuses the edge
  rows the first one computed.
-/

variable (m : (ℓ : Loc nD τ sig) → Buf (Elt Ideal) ℓ) (ρ : Dev nD → PrngReg)

/-! ## After the first host stretch: what the first pallas_call is entered with -/

theorem W1_src (c : Dev nD) : W1 m ρ c (Proc.devRef .tc main_v1) = srcRow (m ((c : Thread nD τ).loc main_arg1)) := by
  show StableHlo.after hostOps0 _ (Proc.devRef .tc main_v1) = _
  simp only [hostOps0]
  after_results
  rfl
theorem W1_dst (c : Dev nD) : W1 m ρ c (Proc.devRef .tc main_v3) = dstRow (m ((c : Thread nD τ).loc main_arg1)) := by
  show StableHlo.after hostOps0 _ (Proc.devRef .tc main_v3) = _
  simp only [hostOps0]
  after_results
  rfl
theorem V1_v13 (c : Dev nD) : V1 m ρ c main_v13 = agg (m ((c : Thread nD τ).loc main_arg0)) (srcRow (m ((c : Thread nD τ).loc main_arg1))) (dstRow (m ((c : Thread nD τ).loc main_arg1))) := by
  show StableHlo.after hostOps0 _ (Proc.devRef .tc main_v13) = _
  simp only [hostOps0]
  after_results
  rfl
theorem V1_v14 (c : Dev nD) : V1 m ρ c main_v14 = shapeCast S1x128 (m ((c : Thread nD τ).loc main_arg4)) Facts₀.shapeCasts_S128_S1x128 := by
  show StableHlo.after hostOps0 _ (Proc.devRef .tc main_v14) = _
  simp only [hostOps0]
  after_results
  rfl
/-- The bias row the first pallas_call reads is the bias vector, entry by entry. -/
theorem V1_v14_row (c : Dev nD) : (fun q : Fin 128 => V1 m ρ c main_v14 (ix2 (0 : Fin 1) q)) = fun q => (m ((c : Thread nD τ).loc main_arg4)) (ix1 q) := by
  funext q
  rw [V1_v14]
  exact shapeCast_a_1a_apply _ _ _ _
theorem V1_arg0 (c : Dev nD) : V1 m ρ c main_arg0 = (m ((c : Thread nD τ).loc main_arg0)) := by
  show StableHlo.after hostOps0 _ (Proc.devRef .tc main_arg0) = _
  simp only [hostOps0]
  after_results
theorem V1_arg3 (c : Dev nD) : V1 m ρ c main_arg3 = (m ((c : Thread nD τ).loc main_arg3)) := by
  show StableHlo.after hostOps0 _ (Proc.devRef .tc main_arg3) = _
  simp only [hostOps0]
  after_results
theorem V1_arg5 (c : Dev nD) : V1 m ρ c main_arg5 = (m ((c : Thread nD τ).loc main_arg5)) := by
  show StableHlo.after hostOps0 _ (Proc.devRef .tc main_arg5) = _
  simp only [hostOps0]
  after_results
theorem W1_arg1 (c : Dev nD) : W1 m ρ c (Proc.devRef .tc main_arg1) = (m ((c : Thread nD τ).loc main_arg1)) := by
  show StableHlo.after hostOps0 _ (Proc.devRef .tc main_arg1) = _
  simp only [hostOps0]
  after_results
theorem W1_arg2 (c : Dev nD) : W1 m ρ c (Proc.devRef .tc main_arg2) = (m ((c : Thread nD τ).loc main_arg2)) := by
  show StableHlo.after hostOps0 _ (Proc.devRef .tc main_arg2) = _
  simp only [hostOps0]
  after_results
theorem W1_arg6 (c : Dev nD) : W1 m ρ c (Proc.devRef .tc main_arg6) = (m ((c : Thread nD τ).loc main_arg6)) := by
  show StableHlo.after hostOps0 _ (Proc.devRef .tc main_arg6) = _
  simp only [hostOps0]
  after_results
theorem W1_arg7 (c : Dev nD) : W1 m ρ c (Proc.devRef .tc main_arg7) = (m ((c : Thread nD τ).loc main_arg7)) := by
  show StableHlo.after hostOps0 _ (Proc.devRef .tc main_arg7) = _
  simp only [hostOps0]
  after_results
theorem W1_arg8 (c : Dev nD) : W1 m ρ c (Proc.devRef .tc main_arg8) = (m ((c : Thread nD τ).loc main_arg8)) := by
  show StableHlo.after hostOps0 _ (Proc.devRef .tc main_arg8) = _
  simp only [hostOps0]
  after_results
theorem W1_arg9 (c : Dev nD) : W1 m ρ c (Proc.devRef .tc main_arg9) = (m ((c : Thread nD τ).loc main_arg9)) := by
  show StableHlo.after hostOps0 _ (Proc.devRef .tc main_arg9) = _
  simp only [hostOps0]
  after_results
theorem W1_arg10 (c : Dev nD) : W1 m ρ c (Proc.devRef .tc main_arg10) = (m ((c : Thread nD τ).loc main_arg10)) := by
  show StableHlo.after hostOps0 _ (Proc.devRef .tc main_arg10) = _
  simp only [hostOps0]
  after_results
theorem W1_arg11 (c : Dev nD) : W1 m ρ c (Proc.devRef .tc main_arg11) = (m ((c : Thread nD τ).loc main_arg11)) := by
  show StableHlo.after hostOps0 _ (Proc.devRef .tc main_arg11) = _
  simp only [hostOps0]
  after_results
theorem W1_arg12 (c : Dev nD) : W1 m ρ c (Proc.devRef .tc main_arg12) = (m ((c : Thread nD τ).loc main_arg12)) := by
  show StableHlo.after hostOps0 _ (Proc.devRef .tc main_arg12) = _
  simp only [hostOps0]
  after_results

/-! ## Across the first pallas_call: it writes none of these -/

theorem W2_src (c : Dev nD) : W2 m ρ c (Proc.devRef .tc main_v1) = srcRow (m ((c : Thread nD τ).loc main_arg1)) :=
  (W2_of_ne m ρ c main_v1 (by decide)).trans (W1_src m ρ c)
theorem W2_dst (c : Dev nD) : W2 m ρ c (Proc.devRef .tc main_v3) = dstRow (m ((c : Thread nD τ).loc main_arg1)) :=
  (W2_of_ne m ρ c main_v3 (by decide)).trans (W1_dst m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_arg12 (c : Dev nD) : W2 m ρ c (Proc.devRef .tc main_arg12) = (m ((c : Thread nD τ).loc main_arg12)) :=
  (W2_of_ne m ρ c main_arg12 (by decide)).trans (W1_arg12 m ρ c)

/-! ## After the second host stretch: what the second pallas_call is entered with, over the first one's output -/

theorem V3_v25 (c : Dev nD) : V3 m ρ c main_v25 = agg (V2 m ρ c main_v15) (srcRow (m ((c : Thread nD τ).loc main_arg1))) (dstRow (m ((c : Thread nD τ).loc main_arg1))) := by
  show StableHlo.after hostOps1 _ (Proc.devRef .tc main_v25) = _
  simp only [hostOps1]
  after_results
  rw [W2_src, W2_dst]
  rfl
theorem V3_v15 (c : Dev nD) : V3 m ρ c main_v15 = V2 m ρ c main_v15 := by
  show StableHlo.after hostOps1 _ (Proc.devRef .tc main_v15) = _
  simp only [hostOps1]
  after_results
theorem V3_v26 (c : Dev nD) : V3 m ρ c main_v26 = shapeCast S1x128 (m ((c : Thread nD τ).loc main_arg7)) Facts₀.shapeCasts_S128_S1x128 := by
  show StableHlo.after hostOps1 _ (Proc.devRef .tc main_v26) = _
  simp only [hostOps1]
  after_results
  rw [W2_arg7]
  rfl
/-- The bias row the second pallas_call reads is the bias vector, entry by entry. -/
theorem V3_v26_row (c : Dev nD) : (fun q : Fin 128 => V3 m ρ c main_v26 (ix2 (0 : Fin 1) q)) = fun q => (m ((c : Thread nD τ).loc main_arg7)) (ix1 q) := by
  funext q
  rw [V3_v26]
  exact shapeCast_a_1a_apply _ _ _ _
theorem V3_arg6 (c : Dev nD) : V3 m ρ c main_arg6 = (m ((c : Thread nD τ).loc main_arg6)) := by
  show StableHlo.after hostOps1 _ (Proc.devRef .tc main_arg6) = _
  simp only [hostOps1]
  after_results
  exact W2_arg6 m ρ c
theorem V3_arg8 (c : Dev nD) : V3 m ρ c main_arg8 = (m ((c : Thread nD τ).loc main_arg8)) := by
  show StableHlo.after hostOps1 _ (Proc.devRef .tc main_arg8) = _
  simp only [hostOps1]
  after_results
  exact W2_arg8 m ρ c
theorem W3_arg2 (c : Dev nD) : W3 m ρ c (Proc.devRef .tc main_arg2) = (m ((c : Thread nD τ).loc main_arg2)) := by
  show StableHlo.after hostOps1 _ (Proc.devRef .tc main_arg2) = _
  simp only [hostOps1]
  after_results
  exact W2_arg2 m ρ c
theorem W3_arg9 (c : Dev nD) : W3 m ρ c (Proc.devRef .tc main_arg9) = (m ((c : Thread nD τ).loc main_arg9)) := by
  show StableHlo.after hostOps1 _ (Proc.devRef .tc main_arg9) = _
  simp only [hostOps1]
  after_results
  exact W2_arg9 m ρ c
theorem W3_arg10 (c : Dev nD) : W3 m ρ c (Proc.devRef .tc main_arg10) = (m ((c : Thread nD τ).loc main_arg10)) := by
  show StableHlo.after hostOps1 _ (Proc.devRef .tc main_arg10) = _
  simp only [hostOps1]
  after_results
  exact W2_arg10 m ρ c
theorem W3_arg11 (c : Dev nD) : W3 m ρ c (Proc.devRef .tc main_arg11) = (m ((c : Thread nD τ).loc main_arg11)) := by
  show StableHlo.after hostOps1 _ (Proc.devRef .tc main_arg11) = _
  simp only [hostOps1]
  after_results
  exact W2_arg11 m ρ c
theorem W3_arg12 (c : Dev nD) : W3 m ρ c (Proc.devRef .tc main_arg12) = (m ((c : Thread nD τ).loc main_arg12)) := by
  show StableHlo.after hostOps1 _ (Proc.devRef .tc main_arg12) = _
  simp only [hostOps1]
  after_results
  exact W2_arg12 m ρ c

/-! ## Across the second pallas_call -/

theorem W4_arg2 (c : Dev nD) : W4 m ρ c (Proc.devRef .tc main_arg2) = (m ((c : Thread nD τ).loc main_arg2)) :=
  (W4_of_ne m ρ c main_arg2 (by decide)).trans (W3_arg2 m ρ c)
theorem W4_arg9 (c : Dev nD) : W4 m ρ c (Proc.devRef .tc main_arg9) = (m ((c : Thread nD τ).loc main_arg9)) :=
  (W4_of_ne m ρ c main_arg9 (by decide)).trans (W3_arg9 m ρ c)
theorem W4_arg10 (c : Dev nD) : W4 m ρ c (Proc.devRef .tc main_arg10) = (m ((c : Thread nD τ).loc main_arg10)) :=
  (W4_of_ne m ρ c main_arg10 (by decide)).trans (W3_arg10 m ρ c)
theorem W4_arg11 (c : Dev nD) : W4 m ρ c (Proc.devRef .tc main_arg11) = (m ((c : Thread nD τ).loc main_arg11)) :=
  (W4_of_ne m ρ c main_arg11 (by decide)).trans (W3_arg11 m ρ c)
theorem W4_arg12 (c : Dev nD) : W4 m ρ c (Proc.devRef .tc main_arg12) = (m ((c : Thread nD τ).loc main_arg12)) :=
  (W4_of_ne m ρ c main_arg12 (by decide)).trans (W3_arg12 m ρ c)

/-! ## After the third host stretch: what the third pallas_call is entered with, over the second one's output -/

theorem V5_v39 (c : Dev nD) : V5 m ρ c main_v39 = pool (V4 m ρ c main_v27) (m ((c : Thread nD τ).loc main_arg2)) := by
  show StableHlo.after hostOps2 _ (Proc.devRef .tc main_v39) = _
  simp only [hostOps2]
  after_results
  rw [W4_arg2]
  rfl
theorem V5_v40 (c : Dev nD) : V5 m ρ c main_v40 = shapeCast S1x128 (m ((c : Thread nD τ).loc main_arg10)) Facts₀.shapeCasts_S128_S1x128 := by
  show StableHlo.after hostOps2 _ (Proc.devRef .tc main_v40) = _
  simp only [hostOps2]
  after_results
  rw [W4_arg10]
  rfl
theorem V5_v41 (c : Dev nD) : V5 m ρ c main_v41 = shapeCast S1x1 (m ((c : Thread nD τ).loc main_arg12)) Facts₀.shapeCasts_S1_S1x1 := by
  show StableHlo.after hostOps2 _ (Proc.devRef .tc main_v41) = _
  simp only [hostOps2]
  after_results
  rw [W4_arg12]
  rfl
/-- The hidden layer's bias row is the bias vector, entry by entry. -/
theorem V5_v40_row (c : Dev nD) : (fun j : Fin 128 => V5 m ρ c main_v40 (ix2 (0 : Fin 1) j)) = fun j => (m ((c : Thread nD τ).loc main_arg10)) (ix1 j) := by
  funext j
  rw [V5_v40]
  exact shapeCast_a_1a_apply _ _ _ _
/-- The output bias, laid out as a one-by-one array, is the bias vector's one entry. -/
theorem V5_v41_row (c : Dev nD) : (fun o : Fin 1 => V5 m ρ c main_v41 (ix2 (0 : Fin 1) o)) = fun o => (m ((c : Thread nD τ).loc main_arg12)) (ix1 o) := by
  funext o
  rw [V5_v41]
  exact shapeCast_a_1a_apply _ _ _ _
theorem V5_arg9 (c : Dev nD) : V5 m ρ c main_arg9 = (m ((c : Thread nD τ).loc main_arg9)) := by
  show StableHlo.after hostOps2 _ (Proc.devRef .tc main_arg9) = _
  simp only [hostOps2]
  after_results
  exact W4_arg9 m ρ c
theorem V5_arg11 (c : Dev nD) : V5 m ρ c main_arg11 = (m ((c : Thread nD τ).loc main_arg11)) := by
  show StableHlo.after hostOps2 _ (Proc.devRef .tc main_arg11) = _
  simp only [hostOps2]
  after_results
  exact W4_arg11 m ρ c

end Cert.KernelIdeal.HostK

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.ConvK0.lean ====
import proofs.«125141_j15539191677055_1_alg».proof.Proof.Gen.KernelIdeal.Frame
import proofs.«125141_j15539191677055_1_alg».proof.Proof.Spec
import proofs.«125141_j15539191677055_1_alg».proof.Proof.LibRowOps
import Idealize.ShloMosaic.Lib.Pipeline.Value
import Idealize.ShloMosaic.Lib.ValueLayout
set_option maxRecDepth 16384

noncomputable section

namespace Cert.KernelIdeal.ConvK0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The body's stored value at row `p`, column `q` of its block: the two matrix products into a zero accumulator are
    sums over the contracted coordinate, the rounding to bf16 and the shape casts to the same shape are identities over
    the extended reals, the one-row bias spread over the rows reads its column's entry, and the clamp is against the
    float zero. -/
theorem payload_apply (x0 x1 : Vec Ideal S2000x128 .f32) (x2 x4 : Vec Ideal S128x128 .f32) (x3 : Vec Ideal S1x128 .f32)
    (p : Fin 2000) (q : Fin 128) :
    k0_pay1 (F := Ideal) x0 x1 x2 x4 x3 (ix2 p q)
      = Cert.GraphSpec.convAt x0 x1 x2 x4 (fun q => x3 (ix2 (0 : Fin 1) q)) p q := by
  unfold k0_pay1 Cert.GraphSpec.convAt
  dsimp only
  rw [maximumf_apply, addf_apply, addf_apply, broadcast_apply]
  unfold dot_S2000x128_S128x128_S2000x128_1_0_0_1_n_n
  simp only [matmul]
  rw [Cert.RowOps.matmul_apply, Cert.RowOps.matmul_apply, Cert.RowOps.rowParam_spread_apply]
  simp only [truncf_apply, shapeCast_self]
  rfl

/-- The zero offsets of a whole-buffer access, as the constant function. -/
theorem zero_offsets : (![0, 0] : Fin 2 → Nat) = fun _ => 0 := funext fun a => by fin_cases a <;> rfl

/-- The index maps over the grid: the two row-blocked inputs and the output sit at block `(t, 0)`; the weights and the
    bias row are whole, at block `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the layer function of the five arrays as the region finds them. -/
theorem flushed_eq (c : Dev nD) (t : Fin cfg0.N) :
    (dat0 (F := Ideal) V c).flushed 5 t = ((cfg0.win 5).blk t).view.read (Elt Ideal)
      (Cert.GraphSpec.conv (V c main_v13) (V c main_arg0) (V c main_arg3) (V c main_arg5) (fun q => V c main_v14 (ix2 (0 : Fin 1) q))) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S128x128) zero_offsets, View.ld_unit_zero (S := S1x128) zero_offsets]
  obtain ⟨e00, e01, e10, e11, e20, e21, e30, e31, e40, e41, e50, e51⟩ := block_indices t
  have ht : t.val < 25 := by have h := t.isLt; have hN : cfg0.N = 25 := N_0; omega
  funext j
  obtain ⟨p, q, rfl⟩ : ∃ (p : Fin 2000) (q : Fin 128), j = ix2 p q := ⟨j 0, j 1, eq_ix2 (n0 := 2000) (n1 := 128) j⟩
  show k0_pay1 (F := Ideal) (iblk0 V c 0 t) (iblk0 V c 1 t) (iblk0 V c 2 t) (iblk0 V c 4 t) (iblk0 V c 3 t) (ix2 p q)
    = Cert.GraphSpec.conv (V c main_v13) (V c main_arg0) (V c main_arg3) (V c main_arg5) (fun q => V c main_v14 (ix2 (0 : Fin 1) q))
        (((cfg0.win 5).blk t).view.emb (ix2 p q))
  refine (payload_apply (iblk0 V c 0 t) (iblk0 V c 1 t) (iblk0 V c 2 t) (iblk0 V c 4 t) (iblk0 V c 3 t) p q).trans ?_
  have hp : p.val < 2000 := p.isLt
  have he : ((cfg0.win 5).blk t).view.emb (ix2 p q) = ix2 (⟨t.val * 2000 + p.val, by omega⟩ : Fin 50000) q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  rw [he, Cert.GraphSpec.conv_apply]
  unfold Cert.GraphSpec.convAt
  -- each input block read where the output's rectangle says: a block's coordinate is its block index times the block's
  -- extent plus the coordinate inside the block
  have h0 : ∀ k : Fin 128, (iblk0 V c 0 t : Vec Ideal S2000x128 .f32) (ix2 p k)
      = (V c main_v13 : S50000x128.Idx → Elt Ideal .f32) (ix2 (⟨t.val * 2000 + p.val, by omega⟩ : Fin 50000) k) := fun k => by
    show V c main_v13 (((cfg0.win 0).blk t).view.emb (ix2 p k)) = _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have h1 : ∀ k : Fin 128, (iblk0 V c 1 t : Vec Ideal S2000x128 .f32) (ix2 p k)
      = (V c main_arg0 : S50000x128.Idx → Elt Ideal .f32) (ix2 (⟨t.val * 2000 + p.val, by omega⟩ : Fin 50000) k) := fun k => by
    show V c main_arg0 (((cfg0.win 1).blk t).view.emb (ix2 p k)) = _
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  have h2 : ∀ k : Fin 128, (iblk0 V c 2 t : Vec Ideal S128x128 .f32) (ix2 k q)
      = (V c main_arg3 : S128x128.Idx → Elt Ideal .f32) (ix2 k q) := fun k => by
    show V c main_arg3 (((cfg0.win 2).blk t).view.emb (ix2 k q)) = _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  have h3 : (iblk0 V c 3 t : Vec Ideal S1x128 .f32) (ix2 (0 : Fin 1) q)
      = (V c main_v14 : S1x128.Idx → Elt Ideal .f32) (ix2 (0 : Fin 1) q) := by
    show V c main_v14 (((cfg0.win 3).blk t).view.emb (ix2 (0 : Fin 1) q)) = _
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega
  have h4 : ∀ k : Fin 128, (iblk0 V c 4 t : Vec Ideal S128x128 .f32) (ix2 k q)
      = (V c main_arg5 : S128x128.Idx → Elt Ideal .f32) (ix2 k q) := fun k => by
    show V c main_arg5 (((cfg0.win 4).blk t).view.emb (ix2 k q)) = _
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega
  simp only [h0, h1, h2, h3, h4]

/-- An index of the output array is in point `t`'s block iff each coordinate is in the block's range on its axis. -/
theorem mem_block (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v15).slice (win0_5.rect t)).set ↔ _
  rw [View.set_slice_whole, Rect.mem_set_unit]
  exact Iff.rfl

/-- THE COVER: row `r` of the output lies in the block of point `r / 2000`, which spans all 128 columns; every point
    writes its block back. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, e50, e51⟩ := block_indices t
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The array the first pallas_call leaves in its output, whatever contents `V` it is entered with: the dense layer
    function of the aggregated features, the node features and the parameters as the region finds them. -/
theorem final (c : Dev nD) :
    (dat0 (F := Ideal) V c).arrAt 5 cfg0.N
      = Cert.GraphSpec.conv (V c main_v13) (V c main_arg0) (V c main_arg3) (V c main_arg5) (fun q => V c main_v14 (ix2 (0 : Fin 1) q)) :=
  (dat0 (F := Ideal) V c).arrAt_eq_of_cover 5 _ (fun t _ => flushed_eq V c t) cover

end Cert.KernelIdeal.ConvK0

end
-- ==== Proof.ConvK1.lean ====
import proofs.«125141_j15539191677055_1_alg».proof.Proof.Gen.KernelIdeal.Frame
import proofs.«125141_j15539191677055_1_alg».proof.Proof.Spec
import proofs.«125141_j15539191677055_1_alg».proof.Proof.LibRowOps
import Idealize.ShloMosaic.Lib.Pipeline.Value
import Idealize.ShloMosaic.Lib.ValueLayout
set_option maxRecDepth 16384

noncomputable section

namespace Cert.KernelIdeal.ConvK1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The second layer's stored value at row `p`, column `q` of its block: the two matrix products into a zero accumulator
    are sums over the contracted coordinate, the rounding to bf16 and the shape casts to the same shape (here on both
    row-blocked operands) are identities over the extended reals, the one-row bias spread over the rows reads its
    column's entry, and the clamp is against the float zero. -/
theorem payload_apply (x0 x1 : Vec Ideal S2000x128 .f32) (x2 x4 : Vec Ideal S128x128 .f32) (x3 : Vec Ideal S1x128 .f32)
    (p : Fin 2000) (q : Fin 128) :
    k1_pay1 (F := Ideal) x0 x1 x2 x4 x3 (ix2 p q)
      = Cert.GraphSpec.convAt x0 x1 x2 x4 (fun q => x3 (ix2 (0 : Fin 1) q)) p q := by
  unfold k1_pay1 Cert.GraphSpec.convAt
  dsimp only
  rw [maximumf_apply, addf_apply, addf_apply, broadcast_apply]
  unfold dot_S2000x128_S128x128_S2000x128_1_0_0_1_n_n
  simp only [matmul]
  rw [Cert.RowOps.matmul_apply, Cert.RowOps.matmul_apply, Cert.RowOps.rowParam_spread_apply]
  simp only [truncf_apply, shapeCast_self]
  rfl

/-- The zero offsets of a whole-buffer access, as the constant function. -/
theorem zero_offsets : (![0, 0] : Fin 2 → Nat) = fun _ => 0 := funext fun a => by fin_cases a <;> rfl

/-- The second call's index maps over its grid: the two row-blocked inputs and the output sit at block `(t, 0)`; the
    weights and the bias row are whole, at block `(0, 0)`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the layer function of the five arrays as the second region finds them. -/
theorem flushed_eq (c : Dev nD) (t : Fin cfg1.N) :
    (dat1 (F := Ideal) V c).flushed 5 t = ((cfg1.win 5).blk t).view.read (Elt Ideal)
      (Cert.GraphSpec.conv (V c main_v25) (V c main_v15) (V c main_arg6) (V c main_arg8) (fun q => V c main_v26 (ix2 (0 : Fin 1) q))) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S128x128) zero_offsets, View.ld_unit_zero (S := S1x128) zero_offsets]
  obtain ⟨e00, e01, e10, e11, e20, e21, e30, e31, e40, e41, e50, e51⟩ := block_indices t
  have ht : t.val < 25 := by have h := t.isLt; have hN : cfg1.N = 25 := N_1; omega
  funext j
  obtain ⟨p, q, rfl⟩ : ∃ (p : Fin 2000) (q : Fin 128), j = ix2 p q := ⟨j 0, j 1, eq_ix2 (n0 := 2000) (n1 := 128) j⟩
  show k1_pay1 (F := Ideal) (iblk1 V c 0 t) (iblk1 V c 1 t) (iblk1 V c 2 t) (iblk1 V c 4 t) (iblk1 V c 3 t) (ix2 p q)
    = Cert.GraphSpec.conv (V c main_v25) (V c main_v15) (V c main_arg6) (V c main_arg8) (fun q => V c main_v26 (ix2 (0 : Fin 1) q))
        (((cfg1.win 5).blk t).view.emb (ix2 p q))
  refine (payload_apply (iblk1 V c 0 t) (iblk1 V c 1 t) (iblk1 V c 2 t) (iblk1 V c 4 t) (iblk1 V c 3 t) p q).trans ?_
  have hp : p.val < 2000 := p.isLt
  have he : ((cfg1.win 5).blk t).view.emb (ix2 p q) = ix2 (⟨t.val * 2000 + p.val, by omega⟩ : Fin 50000) q := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  rw [he, Cert.GraphSpec.conv_apply]
  unfold Cert.GraphSpec.convAt
  -- each input block read where the output's rectangle says: a block's coordinate is its block index times the block's
  -- extent plus the coordinate inside the block
  have h0 : ∀ k : Fin 128, (iblk1 V c 0 t : Vec Ideal S2000x128 .f32) (ix2 p k)
      = (V c main_v25 : S50000x128.Idx → Elt Ideal .f32) (ix2 (⟨t.val * 2000 + p.val, by omega⟩ : Fin 50000) k) := fun k => by
    show V c main_v25 (((cfg1.win 0).blk t).view.emb (ix2 p k)) = _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  have h1 : ∀ k : Fin 128, (iblk1 V c 1 t : Vec Ideal S2000x128 .f32) (ix2 p k)
      = (V c main_v15 : S50000x128.Idx → Elt Ideal .f32) (ix2 (⟨t.val * 2000 + p.val, by omega⟩ : Fin 50000) k) := fun k => by
    show V c main_v15 (((cfg1.win 1).blk t).view.emb (ix2 p k)) = _
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * k.val = k.val; omega
  have h2 : ∀ k : Fin 128, (iblk1 V c 2 t : Vec Ideal S128x128 .f32) (ix2 k q)
      = (V c main_arg6 : S128x128.Idx → Elt Ideal .f32) (ix2 k q) := fun k => by
    show V c main_arg6 (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  have h3 : (iblk1 V c 3 t : Vec Ideal S1x128 .f32) (ix2 (0 : Fin 1) q)
      = (V c main_v26 : S1x128.Idx → Elt Ideal .f32) (ix2 (0 : Fin 1) q) := by
    show V c main_v26 (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  have h4 : ∀ k : Fin 128, (iblk1 V c 4 t : Vec Ideal S128x128 .f32) (ix2 k q)
      = (V c main_arg8 : S128x128.Idx → Elt Ideal .f32) (ix2 k q) := fun k => by
    show V c main_arg8 (((cfg1.win 4).blk t).view.emb (ix2 k q)) = _
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * q.val = q.val; omega
  simp only [h0, h1, h2, h3, h4]

/-- An index of the second layer's output array is in point `t`'s block iff each coordinate is in the block's range on
    its axis. -/
theorem mem_block (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v27).slice (win1_5.rect t)).set ↔ _
  rw [View.set_slice_whole, Rect.mem_set_unit]
  exact Iff.rfl

/-- THE COVER: row `r` of the output lies in the block of point `r / 2000`, which spans all 128 columns; every point
    writes its block back. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, e50, e51⟩ := block_indices t
  refine ⟨t, flush1_5 t, ?_⟩
  rw [mem_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The array the second pallas_call leaves in its output, whatever contents `V` it is entered with: the dense layer
    function of the aggregated features, the first layer's output and the parameters as the region finds them. -/
theorem final (c : Dev nD) :
    (dat1 (F := Ideal) V c).arrAt 5 cfg1.N
      = Cert.GraphSpec.conv (V c main_v25) (V c main_v15) (V c main_arg6) (V c main_arg8) (fun q => V c main_v26 (ix2 (0 : Fin 1) q)) :=
  (dat1 (F := Ideal) V c).arrAt_eq_of_cover 5 _ (fun t _ => flushed_eq V c t) cover

end Cert.KernelIdeal.ConvK1

end
-- ==== Proof.MlpK.lean ====
import proofs.«125141_j15539191677055_1_alg».proof.Proof.Gen.KernelIdeal.Frame
import proofs.«125141_j15539191677055_1_alg».proof.Proof.Spec
import proofs.«125141_j15539191677055_1_alg».proof.Proof.LibRowOps
import Idealize.ShloMosaic.Lib.Pipeline.Value
import Idealize.ShloMosaic.Lib.ValueLayout
set_option maxRecDepth 16384

noncomputable section

namespace Cert.KernelIdeal.MlpK

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The payload at an index -/

/-- The hidden layer of the head, read at graph `g` and hidden feature `j`: the inner product `[256,128]·[128,128]`
    is a finite sum, the bias row spread over the graphs reads its entry `j`, the rounding to the narrower float is
    the identity on extended reals, and the clamp is against the float zero. -/
theorem hidden_apply (x0 : Vec Ideal S256x128 .f32) (x1 : Vec Ideal S128x128 .f32) (x2 : Vec Ideal S1x128 .f32)
    (g : Fin 256) (j : Fin 128) :
    maximumf (addf (matmul dot_S256x128_S128x128_S256x128_1_0_0_1_n_n none
          (truncf .bf16 (shapeCast S256x128 x0 shapeCasts_S256x128_S256x128) bitsLt_bf16_f32)
          (truncf .bf16 x1 bitsLt_bf16_f32) (constant (F := Ideal) S256x128 .f32 0x00000000#32))
        (broadcastTo S256x128 (shapeCast S1x128 x2 shapeCasts_S1x128_S1x128) broadcasts_S1x128_S256x128))
      (broadcast S256x128 (Scalar.ofBits (F := Ideal) .f32 0x00000000#32)) (ix2 g j)
      = Cert.GraphSpec.hiddenAt x0 x1 (fun j => x2 (ix2 (0 : Fin 1) j)) g j := by
  rw [maximumf_apply, addf_apply, broadcast_apply, shapeCast_self]
  unfold Cert.GraphSpec.hiddenAt dot_S256x128_S128x128_S256x128_1_0_0_1_n_n
  refine congrArg₂ max (congrArg₂ (· + ·) ?_ ?_) rfl
  · exact Cert.RowOps.matmul_apply dot_S256x128_S128x128_S256x128_1_0_0_1_n_n_wf none _ _ g j
  · exact Cert.RowOps.rowParam_spread_apply x2 _ _ g j

/-- The kernel's stored payload, read at graph `g` and output `o`, is the read-out head there: the outer product
    `[256,128]·[128,1]` is a finite sum over the hidden features, each summand's left factor the hidden layer at
    `(g, j)`, and the `[1,1]` bias spread over the graphs reads its one entry. -/
theorem pay_apply (x0 : Vec Ideal S256x128 .f32) (x1 : Vec Ideal S128x128 .f32) (x2 : Vec Ideal S1x128 .f32)
    (x3 : Vec Ideal S128x1 .f32) (x4 : Vec Ideal S1x1 .f32) (g : Fin 256) (o : Fin 1) :
    k2_pay1 (F := Ideal) x0 x1 x2 x3 x4 (ix2 g o)
      = Cert.GraphSpec.headAt x0 x1 (fun j => x2 (ix2 (0 : Fin 1) j)) x3 (fun o => x4 (ix2 (0 : Fin 1) o)) g o := by
  unfold k2_pay1
  rw [addf_apply]
  unfold Cert.GraphSpec.headAt dot_S256x128_S128x1_S256x1_1_0_0_1_n_n
  refine congrArg₂ (· + ·) ?_ ?_
  · refine (Cert.RowOps.matmul_apply dot_S256x128_S128x1_S256x1_1_0_0_1_n_n_wf none _ _ g o).trans
      (Finset.sum_congr rfl fun j _ => congrArg₂ (· * ·) ?_ rfl)
    exact hidden_apply x0 x1 x2 g j
  · exact Cert.RowOps.rowParam_spread_apply x4 _ _ g o

/-! ## From the one block to the array -/

/-- The loads and the store of the body go through the whole staging buffer: offsets zero on both axes. -/
theorem offsets_zero : (![0, 0] : Fin 2 → Nat) = fun _ => 0 := funext fun a => by fin_cases a <;> rfl

/-- The windows' index maps on the one-point grid: every window's block index is zero on both axes. -/
theorem block_index_zero : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The payload over blocks that are the whole arrays, at an index of the output block that is the array's index. -/
theorem pay_eq_head (A0 b0 : Vec Ideal S256x128 .f32) (A1 b1 : Vec Ideal S128x128 .f32) (A2 b2 : Vec Ideal S1x128 .f32)
    (A3 b3 : Vec Ideal S128x1 .f32) (A4 b4 : Vec Ideal S1x1 .f32)
    (h0 : b0 = A0) (h1 : b1 = A1) (h2 : b2 = A2) (h3 : b3 = A3) (h4 : b4 = A4) (y i : S256x1.Idx) (hi : i = y) :
    k2_pay1 (F := Ideal) b0 b1 b2 b3 b4 y
      = Cert.GraphSpec.head A0 A1 (fun j => A2 (ix2 (0 : Fin 1) j)) A3 (fun o => A4 (ix2 (0 : Fin 1) o)) i := by
  subst h0 h1 h2 h3 h4 hi
  obtain ⟨g, o, rfl⟩ : ∃ (g : Fin 256) (o : Fin 1), i = ix2 g o := ⟨i 0, i 1, eq_ix2 i⟩
  exact pay_apply b0 b1 b2 b3 b4 g o

/-- What the one point writes back is its block of the head of the arrays as the region finds them. -/
theorem flushed_eq (c : Dev nD) (t : Fin cfg2.N) :
    (dat2 (F := Ideal) V c).flushed 5 t = ((cfg2.win 5).blk t).view.read (Elt Ideal)
      (Cert.GraphSpec.head (V c main_v39) (V c main_arg9) (fun j => V c main_v40 (ix2 (0 : Fin 1) j)) (V c main_arg11)
        (fun o => V c main_v41 (ix2 (0 : Fin 1) o))) := by
  show (cfg2.win 5).cut (grid2.coords t) ((dat2 V c).after 5 t) = _
  rw [after2_5]
  unfold out2_5
  rw [View.canon_unit_zero offsets_zero]
  simp only [View.ld_unit_zero (S := S256x128) offsets_zero, View.ld_unit_zero (S := S128x128) offsets_zero,
    View.ld_unit_zero (S := S1x128) offsets_zero, View.ld_unit_zero (S := S128x1) offsets_zero,
    View.ld_unit_zero (S := S1x1) offsets_zero]
  obtain ⟨e00, e01, e10, e11, e20, e21, e30, e31, e40, e41, e50, e51⟩ := block_index_zero t
  funext y
  show k2_pay1 (F := Ideal) (iblk2 V c 0 t) (iblk2 V c 1 t) (iblk2 V c 2 t) (iblk2 V c 3 t) (iblk2 V c 4 t) y
    = Cert.GraphSpec.head (V c main_v39) (V c main_arg9) (fun j => V c main_v40 (ix2 (0 : Fin 1) j)) (V c main_arg11)
        (fun o => V c main_v41 (ix2 (0 : Fin 1) o)) (((cfg2.win 5).blk t).view.emb y)
  refine pay_eq_head (V c main_v39) (iblk2 V c 0 t) (V c main_arg9) (iblk2 V c 1 t) (V c main_v40) (iblk2 V c 2 t)
    (V c main_arg11) (iblk2 V c 3 t) (V c main_v41) (iblk2 V c 4 t) ?_ ?_ ?_ ?_ ?_ y (((cfg2.win 5).blk t).view.emb y) ?_
  · funext x
    show V c main_v39 (((cfg2.win 0).blk t).view.emb x) = V c main_v39 x
    have h : ((cfg2.win 0).blk t).view.emb x = x := by
      funext a; apply Fin.ext
      match a with
      | ⟨0, _⟩ => show win2_0.index t (0 : Fin 2) * 256 + 1 * (x 0).val = (x 0).val; omega
      | ⟨1, _⟩ => show win2_0.index t (1 : Fin 2) * 128 + 1 * (x 1).val = (x 1).val; omega
    rw [h]
  · funext x
    show V c main_arg9 (((cfg2.win 1).blk t).view.emb x) = V c main_arg9 x
    have h : ((cfg2.win 1).blk t).view.emb x = x := by
      funext a; apply Fin.ext
      match a with
      | ⟨0, _⟩ => show win2_1.index t (0 : Fin 2) * 128 + 1 * (x 0).val = (x 0).val; omega
      | ⟨1, _⟩ => show win2_1.index t (1 : Fin 2) * 128 + 1 * (x 1).val = (x 1).val; omega
    rw [h]
  · funext x
    show V c main_v40 (((cfg2.win 2).blk t).view.emb x) = V c main_v40 x
    have h : ((cfg2.win 2).blk t).view.emb x = x := by
      funext a; apply Fin.ext
      match a with
      | ⟨0, _⟩ => show win2_2.index t (0 : Fin 2) * 1 + 1 * (x 0).val = (x 0).val; omega
      | ⟨1, _⟩ => show win2_2.index t (1 : Fin 2) * 128 + 1 * (x 1).val = (x 1).val; omega
    rw [h]
  · funext x
    show V c main_arg11 (((cfg2.win 3).blk t).view.emb x) = V c main_arg11 x
    have h : ((cfg2.win 3).blk t).view.emb x = x := by
      funext a; apply Fin.ext
      match a with
      | ⟨0, _⟩ => show win2_3.index t (0 : Fin 2) * 128 + 1 * (x 0).val = (x 0).val; omega
      | ⟨1, _⟩ => show win2_3.index t (1 : Fin 2) * 1 + 1 * (x 1).val = (x 1).val; omega
    rw [h]
  · funext x
    show V c main_v41 (((cfg2.win 4).blk t).view.emb x) = V c main_v41 x
    have h : ((cfg2.win 4).blk t).view.emb x = x := by
      funext a; apply Fin.ext
      match a with
      | ⟨0, _⟩ => show win2_4.index t (0 : Fin 2) * 1 + 1 * (x 0).val = (x 0).val; omega
      | ⟨1, _⟩ => show win2_4.index t (1 : Fin 2) * 1 + 1 * (x 1).val = (x 1).val; omega
    rw [h]
  · funext a; apply Fin.ext
    match a with
    | ⟨0, _⟩ => show win2_5.index t (0 : Fin 2) * 256 + 1 * (y 0).val = (y 0).val; omega
    | ⟨1, _⟩ => show win2_5.index t (1 : Fin 2) * 1 + 1 * (y 1).val = (y 1).val; omega

/-- An index of the output array is in the point's block iff each coordinate is in the block's range on its axis. -/
theorem mem_block (t : Fin cfg2.N) (i : S256x1.Idx) :
    i ∈ ((cfg2.win 5).blk t).view.set ↔ ∀ a : Fin 2, win2_5.index t a * S256x1.size a ≤ (i a).val ∧ (i a).val < win2_5.index t a * S256x1.size a + S256x1.size a := by
  show i ∈ ((View.whole main_v42).slice (win2_5.rect t)).set ↔ _
  rw [View.set_slice_whole, Rect.mem_set_unit]
  exact Iff.rfl

/-- The one point's block is the whole output array: it covers every index, and the point writes back. -/
theorem covered (i : S256x1.Idx) :
    ∃ t : Fin cfg2.N, (cfg2.win 5).flush t = true ∧ i ∈ ((cfg2.win 5).blk t).view.set := by
  obtain ⟨-, -, -, -, -, -, -, -, -, -, e50, e51⟩ := block_index_zero t2_0
  refine ⟨t2_0, flush2_5 t2_0, ?_⟩
  rw [mem_block]
  intro a
  match a with
  | ⟨0, _⟩ => show win2_5.index t2_0 (0 : Fin 2) * 256 ≤ (i 0).val ∧ (i 0).val < win2_5.index t2_0 (0 : Fin 2) * 256 + 256; have hi : (i 0).val < 256 := (i 0).isLt; omega
  | ⟨1, _⟩ => show win2_5.index t2_0 (1 : Fin 2) * 1 ≤ (i 1).val ∧ (i 1).val < win2_5.index t2_0 (1 : Fin 2) * 1 + 1; have hi : (i 1).val < 1 := (i 1).isLt; omega

/-- The array the third pallas_call leaves in its output, whatever contents `V` it is entered with: the read-out head
    of the pooled features and the parameters as the region finds them. -/
theorem final (c : Dev nD) :
    (dat2 (F := Ideal) V c).arrAt 5 cfg2.N
      = Cert.GraphSpec.head (V c main_v39) (V c main_arg9) (fun j => V c main_v40 (ix2 (0 : Fin 1) j)) (V c main_arg11)
          (fun o => V c main_v41 (ix2 (0 : Fin 1) o)) := by
  exact (dat2 (F := Ideal) V c).arrAt_eq_of_cover 5 _ (fun t _ => flushed_eq V c t) covered

end Cert.KernelIdeal.MlpK

end
-- ==== Proof.KValue.lean ====
import proofs.«125141_j15539191677055_1_alg».proof.Proof.Gen.KernelIdeal.Frame
import proofs.«125141_j15539191677055_1_alg».proof.Proof.Net
import proofs.«125141_j15539191677055_1_alg».proof.Proof.HostK
import proofs.«125141_j15539191677055_1_alg».proof.Proof.ConvK0
import proofs.«125141_j15539191677055_1_alg».proof.Proof.ConvK1
import proofs.«125141_j15539191677055_1_alg».proof.Proof.MlpK

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.HostDefs Cert.KernelIdeal.HostK

/-! The kernel's program, boundary by boundary: each pallas_call's output array is the specification's function of what
    the call is entered with, and what it is entered with is the host stretch before it read back; composed, the result
    array is the network function of the launch arguments. -/

variable (m : (ℓ : Loc nD τ sig) → Buf (Elt Ideal) ℓ) (ρ : Dev nD → PrngReg)

/-- The first layer's output, at the first pallas_call's exit. -/
theorem layer1 (c : Dev nD) : V2 m ρ c main_v15
    = Cert.GraphSpec.conv (agg (m ((c : Thread nD τ).loc main_arg0)) (srcRow (m ((c : Thread nD τ).loc main_arg1))) (dstRow (m ((c : Thread nD τ).loc main_arg1)))) (m ((c : Thread nD τ).loc main_arg0)) (m ((c : Thread nD τ).loc main_arg3)) (m ((c : Thread nD τ).loc main_arg5)) (fun q => (m ((c : Thread nD τ).loc main_arg4)) (ix1 q)) := by
  refine (W2_arr m ρ c 5).trans ?_
  rw [Cert.KernelIdeal.ConvK0.final (V1 m ρ) c, V1_v13, V1_arg0, V1_arg3, V1_arg5, V1_v14_row]

/-- The second layer's output, at the second pallas_call's exit, over the first layer's. -/
theorem layer2 (c : Dev nD) : V4 m ρ c main_v27
    = Cert.GraphSpec.conv (agg (V2 m ρ c main_v15) (srcRow (m ((c : Thread nD τ).loc main_arg1))) (dstRow (m ((c : Thread nD τ).loc main_arg1)))) (V2 m ρ c main_v15) (m ((c : Thread nD τ).loc main_arg6)) (m ((c : Thread nD τ).loc main_arg8)) (fun q => (m ((c : Thread nD τ).loc main_arg7)) (ix1 q)) := by
  refine (W4_arr m ρ c 5).trans ?_
  rw [Cert.KernelIdeal.ConvK1.final (V3 m ρ) c, V3_v25, V3_v15, V3_arg6, V3_arg8, V3_v26_row]

/-- The result array at the last boundary is the network function of the launch arguments. -/
theorem result (c : Dev nD) : W6 m ρ c (Proc.devRef .tc main_v42)
    = Cert.GraphSpec.net (fun h => agg h (srcRow (m ((c : Thread nD τ).loc main_arg1))) (dstRow (m ((c : Thread nD τ).loc main_arg1)))) (fun h => pool h (m ((c : Thread nD τ).loc main_arg2))) (m ((c : Thread nD τ).loc main_arg0)) (m ((c : Thread nD τ).loc main_arg3)) (m ((c : Thread nD τ).loc main_arg5)) (m ((c : Thread nD τ).loc main_arg6)) (m ((c : Thread nD τ).loc main_arg8)) (m ((c : Thread nD τ).loc main_arg9))
        (fun q => (m ((c : Thread nD τ).loc main_arg4)) (ix1 q)) (fun q => (m ((c : Thread nD τ).loc main_arg7)) (ix1 q)) (fun j => (m ((c : Thread nD τ).loc main_arg10)) (ix1 j)) (m ((c : Thread nD τ).loc main_arg11)) (fun o => (m ((c : Thread nD τ).loc main_arg12)) (ix1 o)) := by
  refine (W6_arr m ρ c 5).trans ?_
  rw [Cert.KernelIdeal.MlpK.final (V5 m ρ) c, V5_v39, V5_arg9, V5_arg11, V5_v40_row, V5_v41_row, layer2, layer1]
  rfl

end Cert.KernelIdeal.KValue

end
-- ==== Proof.HostDefsR.lean ====
/-
  The same host-side operations as they stand in the reference program, each named as one function of its inputs and never opened:
  the two index rows of the edge list, the neighbour aggregation (a gather of source rows scatter-added into destination
  rows), and the mean pooling over graphs (scatter-added sums divided by clamped counts).
  The kernel's program applies the very same operations to its own values; the certificate only ever compares the names.
-/
import proofs.«125141_j15539191677055_1_alg».proof.Proof.Gen.ReferenceIdeal
import Idealize.ShloMosaic.PureOps.Ideal

noncomputable section

namespace Cert.ReferenceIdeal.HostDefs

open Idealize.ShloMosaic Idealize.SL.Sem Cert.ReferenceIdeal Cert.ReferenceIdeal.Facts₀

/-- Row 0 of the edge list (the source nodes), as a flat index array. -/
def srcRow (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- Row 1 of the edge list (the destination nodes), as a flat index array. -/
def dstRow (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- Neighbour aggregation: rows of `h` gathered at the (wrapped) source indices, scatter-added at the destination
    indices into a zero array. -/
def agg (h : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- Mean pooling: per-graph sums of the node rows divided by the per-graph node counts clamped below at one. -/
def pool (h : (⟨S50000x128, .f32⟩ : BufTy).Contents (Elt Ideal)) (bt : (⟨S50000, .i32⟩ : BufTy).Contents (Elt Ideal)) :
    (⟨S256x128, .f32⟩ : BufTy).Contents (Elt Ideal) :=
  Host.divf (F := Ideal)
    (Host.scatterAdd scatter_S256x128_S50000x1_S50000x128_1_0_0_1
      (broadcastInDim S256x128 ![] bcast_S_S256x128 (constant (F := Ideal) S_ .f32 0x00000000#32))
      (broadcastInDim S50000x1 ![0] bcast_S50000_S50000x1_0 bt) h)
    (broadcastInDim S256x128 ![0, 1] bcast_S256x1_S256x128_0_1
      (broadcastInDim S256x1 ![0] bcast_S256_S256x1_0
        (maximumf
          (Host.scatterAdd scatter_S256_S50000x1_S50000_n_0_0_1
            (broadcastInDim S256 ![] bcast_S_S256 (constant (F := Ideal) S_ .f32 0x00000000#32))
            (broadcastInDim S50000x1 ![0] bcast_S50000_S50000x1_0 bt)
            (broadcastInDim S50000 ![] bcast_S_S50000 (constant (F := Ideal) S_ .f32 0x3F800000#32)))
          (broadcastInDim S256 ![] bcast_S_S256 (constant (F := Ideal) S_ .f32 0x3F800000#32)))))

end Cert.ReferenceIdeal.HostDefs

end
-- ==== Proof.RefConv.lean ====
import proofs.«125141_j15539191677055_1_alg».proof.Proof.Gen.ReferenceIdeal.Run
import proofs.«125141_j15539191677055_1_alg».proof.Proof.Gen.ReferenceIdeal.Read
import proofs.«125141_j15539191677055_1_alg».proof.Proof.Spec
import proofs.«125141_j15539191677055_1_alg».proof.Proof.HostDefsR
import Idealize.ShloMosaic.Lib.ValueLayout

noncomputable section

namespace Cert.ReferenceIdeal.RefConv

open Idealize.ShloMosaic Idealize.ShloMosaic.ValueIdx Idealize.SL.Sem
open Cert.ReferenceIdeal Cert.ReferenceIdeal.Read Cert.ReferenceIdeal.HostDefs

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S128x128, .f32⟩ : BufTy).Contents (Elt Ideal))
  (x4 : (⟨S128, .f32⟩ : BufTy).Contents (Elt Ideal)) (x5 x6 : (⟨S128x128, .f32⟩ : BufTy).Contents (Elt Ideal))
  (x7 : (⟨S128, .f32⟩ : BufTy).Contents (Elt Ideal)) (x8 x9 : (⟨S128x128, .f32⟩ : BufTy).Contents (Elt Ideal))
  (x10 : (⟨S128, .f32⟩ : BufTy).Contents (Elt Ideal)) (x11 : (⟨S128x1, .f32⟩ : BufTy).Contents (Elt Ideal))
  (x12 : (⟨S1, .f32⟩ : BufTy).Contents (Elt Ideal))

/-- The index functions of the two contractions, the row broadcast and the rank-1 lift, read at the coordinates `(p, q)`. -/
theorem lidx14 (p : Fin 50000) (q k : Fin 128) : lidx_main_v14 (ix2 p q) k = ix2 p k :=
  funext fun a => Fin.ext (by match a with | ⟨0, _⟩ => rfl | ⟨1, _⟩ => rfl)
theorem ridx14 (p : Fin 50000) (q k : Fin 128) : ridx_main_v14 (ix2 p q) k = ix2 k q :=
  funext fun a => Fin.ext (by match a with | ⟨0, _⟩ => rfl | ⟨1, _⟩ => rfl)
theorem lidx18 (p : Fin 50000) (q k : Fin 128) : lidx_main_v18 (ix2 p q) k = ix2 p k :=
  funext fun a => Fin.ext (by match a with | ⟨0, _⟩ => rfl | ⟨1, _⟩ => rfl)
theorem ridx18 (p : Fin 50000) (q k : Fin 128) : ridx_main_v18 (ix2 p q) k = ix2 k q :=
  funext fun a => Fin.ext (by match a with | ⟨0, _⟩ => rfl | ⟨1, _⟩ => rfl)
theorem idx15_16 (p : Fin 50000) (q : Fin 128) : idx_main_v15 (idx_main_v16 (ix2 p q)) = ix1 q :=
  funext fun a => Fin.ext (by match a with | ⟨0, _⟩ => rfl)

/-- Layer 1 of the reference is the dense layer function of its aggregation, the node features and the parameters. -/
theorem conv1_eq : val_main_v20 (F := Ideal) x0 x1 x3 x4 x5
    = Cert.GraphSpec.conv (val_main_v13 (F := Ideal) x0 x1) x0 x3 x5 (fun q => x4 (ix1 q)) := by
  funext i
  obtain ⟨p, q, rfl⟩ : ∃ (p : Fin 50000) (q : Fin 128), i = ix2 p q := ⟨i 0, i 1, eq_ix2 i⟩
  rw [Cert.GraphSpec.conv_apply]
  unfold Cert.GraphSpec.convAt
  rw [val_main_v20_apply, val_main_v19_apply, val_main_v17_apply, val_main_v14_apply, val_main_v16_apply,
    val_main_v15_apply, val_main_v18_apply, val_main_call0_v0_apply, val_main_call0_cst_apply]
  simp only [lidx14, ridx14, lidx18, ridx18, idx15_16, Ideal.maximumf_def, Ideal.addf_def, Ideal.ofBits_def]

/-- The same index functions one layer later. -/
theorem lidx31 (p : Fin 50000) (q k : Fin 128) : lidx_main_v31 (ix2 p q) k = ix2 p k :=
  funext fun a => Fin.ext (by match a with | ⟨0, _⟩ => rfl | ⟨1, _⟩ => rfl)
theorem ridx31 (p : Fin 50000) (q k : Fin 128) : ridx_main_v31 (ix2 p q) k = ix2 k q :=
  funext fun a => Fin.ext (by match a with | ⟨0, _⟩ => rfl | ⟨1, _⟩ => rfl)
theorem lidx35 (p : Fin 50000) (q k : Fin 128) : lidx_main_v35 (ix2 p q) k = ix2 p k :=
  funext fun a => Fin.ext (by match a with | ⟨0, _⟩ => rfl | ⟨1, _⟩ => rfl)
theorem ridx35 (p : Fin 50000) (q k : Fin 128) : ridx_main_v35 (ix2 p q) k = ix2 k q :=
  funext fun a => Fin.ext (by match a with | ⟨0, _⟩ => rfl | ⟨1, _⟩ => rfl)
theorem idx32_33 (p : Fin 50000) (q : Fin 128) : idx_main_v32 (idx_main_v33 (ix2 p q)) = ix1 q :=
  funext fun a => Fin.ext (by match a with | ⟨0, _⟩ => rfl)

/-- Layer 2 likewise, over layer 1's output. -/
theorem conv2_eq : val_main_v37 (F := Ideal) x0 x1 x3 x4 x5 x6 x7 x8
    = Cert.GraphSpec.conv (val_main_v30 (F := Ideal) x0 x1 x3 x4 x5) (val_main_v20 (F := Ideal) x0 x1 x3 x4 x5) x6 x8 (fun q => x7 (ix1 q)) := by
  funext i
  obtain ⟨p, q, rfl⟩ : ∃ (p : Fin 50000) (q : Fin 128), i = ix2 p q := ⟨i 0, i 1, eq_ix2 i⟩
  rw [Cert.GraphSpec.conv_apply]
  unfold Cert.GraphSpec.convAt
  rw [val_main_v37_apply, val_main_v36_apply, val_main_v34_apply, val_main_v31_apply, val_main_v33_apply,
    val_main_v32_apply, val_main_v35_apply, val_main_call1_v0_apply, val_main_call1_cst_apply]
  simp only [lidx31, ridx31, lidx35, ridx35, idx32_33, Ideal.maximumf_def, Ideal.addf_def, Ideal.ofBits_def]

end Cert.ReferenceIdeal.RefConv

end
-- ==== Proof.RefHead.lean ====
import proofs.«125141_j15539191677055_1_alg».proof.Proof.Gen.ReferenceIdeal.Run
import proofs.«125141_j15539191677055_1_alg».proof.Proof.Gen.ReferenceIdeal.Read
import proofs.«125141_j15539191677055_1_alg».proof.Proof.Spec
import proofs.«125141_j15539191677055_1_alg».proof.Proof.HostDefsR
import Idealize.ShloMosaic.Lib.ValueLayout

noncomputable section

namespace Cert.ReferenceIdeal.RefHead

open Idealize.ShloMosaic Idealize.ShloMosaic.ValueIdx Idealize.SL.Sem
open Cert.ReferenceIdeal Cert.ReferenceIdeal.Read Cert.ReferenceIdeal.HostDefs

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S128x128, .f32⟩ : BufTy).Contents (Elt Ideal))
  (x4 : (⟨S128, .f32⟩ : BufTy).Contents (Elt Ideal)) (x5 x6 : (⟨S128x128, .f32⟩ : BufTy).Contents (Elt Ideal))
  (x7 : (⟨S128, .f32⟩ : BufTy).Contents (Elt Ideal)) (x8 x9 : (⟨S128x128, .f32⟩ : BufTy).Contents (Elt Ideal))
  (x10 : (⟨S128, .f32⟩ : BufTy).Contents (Elt Ideal)) (x11 : (⟨S128x1, .f32⟩ : BufTy).Contents (Elt Ideal))
  (x12 : (⟨S1, .f32⟩ : BufTy).Contents (Elt Ideal))

/-! Index equations: the composed index maps of the generated stage lemmas are the coordinate constructors. -/

/-- The left operand of the hidden layer's contraction is read at row `g`, column `k`. -/
theorem lidx_hidden (g : Fin 256) (j : Fin 128) (k : Fin 128) : lidx_main_v50 (ix2 g j) k = ix2 g k :=
  funext fun a => Fin.ext (by match a with | ⟨0, _⟩ => rfl | ⟨1, _⟩ => rfl)

/-- The right operand of the hidden layer's contraction is read at row `k`, column `j`. -/
theorem ridx_hidden (g : Fin 256) (j : Fin 128) (k : Fin 128) : ridx_main_v50 (ix2 g j) k = ix2 k j :=
  funext fun a => Fin.ext (by match a with | ⟨0, _⟩ => rfl | ⟨1, _⟩ => rfl)

/-- The hidden layer's bias row, spread over the graphs, is read at its column. -/
theorem idx_hidden_bias (g : Fin 256) (j : Fin 128) : idx_main_v51 (idx_main_v52 (ix2 g j)) = ix1 j :=
  funext fun a => Fin.ext (by match a with | ⟨0, _⟩ => rfl)

/-- The left operand of the output contraction is read at row `g`, column `k`. -/
theorem lidx_out (g : Fin 256) (o : Fin 1) (k : Fin 128) : lidx_main_v55 (ix2 g o) k = ix2 g k :=
  funext fun a => Fin.ext (by match a with | ⟨0, _⟩ => rfl | ⟨1, _⟩ => rfl)

/-- The right operand of the output contraction is read at row `k`, column `o`. -/
theorem ridx_out (g : Fin 256) (o : Fin 1) (k : Fin 128) : ridx_main_v55 (ix2 g o) k = ix2 k o :=
  funext fun a => Fin.ext (by match a with | ⟨0, _⟩ => rfl | ⟨1, _⟩ => rfl)

/-- The output bias, spread over the graphs, is read at its only entry. -/
theorem idx_out_bias (g : Fin 256) (o : Fin 1) : idx_main_v56 (idx_main_v57 (ix2 g o)) = ix1 o :=
  funext fun a => Fin.ext (by
    match a with
    | ⟨0, _⟩ =>
      have h := o.isLt
      show 0 = o.val
      omega)

/-- The hidden layer, read at graph `g` and hidden feature `j`: the contraction of the pooled features with the first
weight matrix, plus the bias, clamped below at zero. -/
theorem hidden_eq (g : Fin 256) (j : Fin 128) :
    val_main_v54 (F := Ideal) x0 x1 x2 x3 x4 x5 x6 x7 x8 x9 x10 (ix2 g j)
      = Cert.GraphSpec.hiddenAt (val_main_v49 (F := Ideal) x0 x1 x2 x3 x4 x5 x6 x7 x8) x9 (fun j => x10 (ix1 j)) g j := by
  rw [val_main_v54_apply, val_main_v53_apply, val_main_v50_apply, val_main_v52_apply, val_main_v51_apply,
    val_main_call2_v0_apply, val_main_call2_cst_apply]
  unfold Cert.GraphSpec.hiddenAt
  simp only [lidx_hidden, ridx_hidden, idx_hidden_bias, Ideal.maximumf_def, Ideal.addf_def, Ideal.ofBits_def]

/-- The reference's result is the read-out head of the pooled features. -/
theorem head_eq : val_main_v58 (F := Ideal) x0 x1 x2 x3 x4 x5 x6 x7 x8 x9 x10 x11 x12
    = Cert.GraphSpec.head (val_main_v49 (F := Ideal) x0 x1 x2 x3 x4 x5 x6 x7 x8) x9 (fun j => x10 (ix1 j)) x11 (fun o => x12 (ix1 o)) := by
  funext i
  obtain ⟨g, o, rfl⟩ : ∃ (g : Fin 256) (o : Fin 1), i = ix2 g o := ⟨i 0, i 1, eq_ix2 i⟩
  rw [Cert.GraphSpec.head_apply]
  unfold Cert.GraphSpec.headAt
  rw [val_main_v58_apply, val_main_v55_apply, val_main_v57_apply, val_main_v56_apply, idx_out_bias, Ideal.addf_def]
  refine congrArg (fun s : EReal => s + x12 (ix1 o)) ?_
  exact Finset.sum_congr rfl fun k _ => by rw [lidx_out, ridx_out, hidden_eq]

end Cert.ReferenceIdeal.RefHead

end
-- ==== Proof.RefNet.lean ====
import proofs.«125141_j15539191677055_1_alg».proof.Proof.Gen.ReferenceIdeal.Run
import proofs.«125141_j15539191677055_1_alg».proof.Proof.Gen.ReferenceIdeal.Read
import proofs.«125141_j15539191677055_1_alg».proof.Proof.Spec
import proofs.«125141_j15539191677055_1_alg».proof.Proof.Net
import proofs.«125141_j15539191677055_1_alg».proof.Proof.RefConv
import proofs.«125141_j15539191677055_1_alg».proof.Proof.RefHead
import proofs.«125141_j15539191677055_1_alg».proof.Proof.HostDefsR
import Idealize.ShloMosaic.Lib.ValueLayout

noncomputable section

namespace Cert.ReferenceIdeal.RefNet

open Idealize.ShloMosaic Idealize.ShloMosaic.ValueIdx Idealize.SL.Sem
open Cert.ReferenceIdeal Cert.ReferenceIdeal.Read Cert.ReferenceIdeal.HostDefs

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S128x128, .f32⟩ : BufTy).Contents (Elt Ideal))
  (x4 : (⟨S128, .f32⟩ : BufTy).Contents (Elt Ideal)) (x5 x6 : (⟨S128x128, .f32⟩ : BufTy).Contents (Elt Ideal))
  (x7 : (⟨S128, .f32⟩ : BufTy).Contents (Elt Ideal)) (x8 x9 : (⟨S128x128, .f32⟩ : BufTy).Contents (Elt Ideal))
  (x10 : (⟨S128, .f32⟩ : BufTy).Contents (Elt Ideal)) (x11 : (⟨S128x1, .f32⟩ : BufTy).Contents (Elt Ideal))
  (x12 : (⟨S1, .f32⟩ : BufTy).Contents (Elt Ideal))

/-! The reference program's result as the network function: its two aggregations and its pooling are the named host
    functions (the same operations, by unfolding the stages), its layers and its head are the specification's. -/

/-- The first aggregation is the named host function of the node features and the edge rows. -/
theorem agg1_eq : val_main_v13 (F := Ideal) x0 x1 = agg x0 (srcRow x1) (dstRow x1) := rfl

/-- The second aggregation is the same host function of the first layer's output. -/
theorem agg2_eq : val_main_v30 (F := Ideal) x0 x1 x3 x4 x5 = agg (val_main_v20 (F := Ideal) x0 x1 x3 x4 x5) (srcRow x1) (dstRow x1) := rfl

/-- The pooled features are the named pooling of the second layer's output. -/
theorem pool_eq : val_main_v49 (F := Ideal) x0 x1 x2 x3 x4 x5 x6 x7 x8 = pool (val_main_v37 (F := Ideal) x0 x1 x3 x4 x5 x6 x7 x8) x2 := rfl

/-- The reference's result is the network function of its arguments. -/
theorem result : val_main_v58 (F := Ideal) x0 x1 x2 x3 x4 x5 x6 x7 x8 x9 x10 x11 x12
    = Cert.GraphSpec.net (fun h => agg h (srcRow x1) (dstRow x1)) (fun h => pool h x2) x0 x3 x5 x6 x8 x9
        (fun q => x4 (ix1 q)) (fun q => x7 (ix1 q)) (fun j => x10 (ix1 j)) x11 (fun o => x12 (ix1 o)) := by
  rw [Cert.ReferenceIdeal.RefHead.head_eq, pool_eq, Cert.ReferenceIdeal.RefConv.conv2_eq, agg2_eq,
    Cert.ReferenceIdeal.RefConv.conv1_eq, agg1_eq]
  rfl

end Cert.ReferenceIdeal.RefNet

end
-- ==== Proof.lean ====
/-
  The certificate of the graph network: two dense graph-convolution layers (each fed the neighbour aggregation of its
  own input), mean pooling over graphs, and a two-layer read-out head.

  The kernel's program runs the dense part of each layer and the head as three pallas_calls (their matrix products taken
  on operands rounded to a narrower float format, which over the extended reals is the identity) and keeps the gather /
  scatter-add aggregation and the pooling as host operations between them; the reference runs everything on the host.
  Over the extended reals both are ONE function of the arguments (`Cert.GraphSpec.net`): each pallas_call's output
  array is, index by index, `max (A · W_rel + b + X · W_root) 0` (resp. `relu (P · W₁ + b₁) · W₂ + b₂`) of the arrays it
  is entered with — a matrix product into a zero accumulator is the plain sum over the contracted axis, in the same
  order of operations as the reference's —, and the host operations around the calls are literally the reference's.
  No algebraic law beyond reading each operation at an index is used, so the finiteness precondition is never opened.
  The three frames are the generated ones (the reference's is its generated run with the result dropped); the ideal
  pass rewrote nothing, so `preserves` is trivial.
-/
import proofs.«125141_j15539191677055_1_alg».proof.Defs
import proofs.«125141_j15539191677055_1_alg».proof.Proof.Gen.Kernel
import proofs.«125141_j15539191677055_1_alg».proof.Proof.Gen.Kernel.Frame
import proofs.«125141_j15539191677055_1_alg».proof.Proof.Gen.KernelIdeal
import proofs.«125141_j15539191677055_1_alg».proof.Proof.Gen.KernelIdeal.Frame
import proofs.«125141_j15539191677055_1_alg».proof.Proof.Gen.ReferenceIdeal
import proofs.«125141_j15539191677055_1_alg».proof.Proof.Gen.ReferenceIdeal.Run
import proofs.«125141_j15539191677055_1_alg».proof.Proof.Gen.ReferenceIdeal.Read
import proofs.«125141_j15539191677055_1_alg».proof.Proof.Gen.Pre_finite_inputs
import proofs.«125141_j15539191677055_1_alg».proof.Proof.KRun
import proofs.«125141_j15539191677055_1_alg».proof.Proof.KValue
import proofs.«125141_j15539191677055_1_alg».proof.Proof.RefNet
import Idealize.ShloMosaic.Adequacy
import Idealize.ShloMosaic.Init

noncomputable section

namespace Cert.Proof

open Idealize.ShloMosaic Idealize.ShloMosaic.TcCoe Idealize.ShloMosaic.ValueIdx Idealize.SL.Sem

/-- The two programs' named host functions are the same operations. -/
theorem agg_eq (h s d) : Cert.ReferenceIdeal.HostDefs.agg h s d = Cert.KernelIdeal.HostDefs.agg h s d := rfl
theorem srcRow_eq (e) : Cert.ReferenceIdeal.HostDefs.srcRow e = Cert.KernelIdeal.HostDefs.srcRow e := rfl
theorem dstRow_eq (e) : Cert.ReferenceIdeal.HostDefs.dstRow e = Cert.KernelIdeal.HostDefs.dstRow e := rfl
theorem pool_eq (h b) : Cert.ReferenceIdeal.HostDefs.pool h b = Cert.KernelIdeal.HostDefs.pool h b := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the network function of the (agreeing) arguments in their result arrays. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.KValue.result m ρ c), (h c).2⟩)
    (Cert.KernelIdeal.KRun.run_main (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v58_eq, Cert.ReferenceIdeal.RefNet.result, e0, e1, e2, e3, e4, e5, e6, e7, e8, e9, e10, e11, e12]
  simp only [agg_eq, srcRow_eq, dstRow_eq, pool_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
